-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8192x4096 .f32) (main_arg1 : FVec F S11008x4096 .f32) (main_arg2 : FVec F S11008x32 .f32) (main_arg3 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x32 .f32 := Host.absf main_arg2
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S256x32 : Shape := ⟨2, ![256, 32]⟩
abbrev S1x256 : Shape := ⟨2, ![1, 256]⟩
abbrev S512x256 : Shape := ⟨2, ![512, 256]⟩
abbrev S256x32x1 : Shape := ⟨3, ![256, 32, 1]⟩
abbrev S256x32x128 : Shape := ⟨3, ![256, 32, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S1x11008, .f32⟩
  | .hbm, ⟨5, _⟩ => ⟨S8192x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S256x32, .f32⟩
  | .local _ .vmem, ⟨5, _⟩ => ⟨S256x32, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S256x32_S256x32x1 : S256x32.ShapeCasts S256x32x1
  shapeCasts_S256x32x1_S256x32x1 : S256x32x1.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x11008.size a
  hwx0_4 : ∀ i : grid0.Coords, EltTy.bits .f32 = 32 ∨ (Rect.block (s := S8192x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S8192x11008 : Shape := ⟨2, ![8192, 11008]⟩
abbrev S1x11008 : Shape := ⟨2, ![1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S8192x11008, .f32⟩
  | .hbm, ⟨10, _⟩ => ⟨S1x11008, .f32⟩
  | .hbm, ⟨11, _⟩ => ⟨S8192x11008, .f32⟩
  | .hbm, ⟨12, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Spec.lean ====
/-
  The layer both programs compute, as ONE function of the four argument arrays, with no program in sight.

  A linear layer whose weight matrix is stored ternary with one scale per (output row, group of 128 input
  columns): the weight actually used is `w[o, k] * sc[o, k / 128]`, and
      out[t, o] = (∑ k < 4096, x[t, k] * (w[o, k] * sc[o, k / 128])) + b[o]
  over the extended reals. Nothing here needs a law of arithmetic: the two programs will be shown to compute
  this very sum of these very products, so no finiteness of the inputs is used anywhere.
-/
import Idealize.ShloMosaic.Lib.ValueIdx

noncomputable section

open scoped BigOperators

namespace Cert.Spec

open Idealize.ShloMosaic Idealize.ShloMosaic.ValueIdx

/-- Input column `k` of the 4096 belongs to scale group `k / 128` of the 32. -/
def grp (k : Fin 4096) : Fin 32 := ⟨k.val / 128, by have := k.isLt; omega⟩

theorem grp_val (k : Fin 4096) : (grp k).val = k.val / 128 := rfl

/-- The dequantised linear layer: entry `(t, o)` is the dot product of row `t` of `x` with row `o` of the
    dequantised weights, plus the bias of output `o`. -/
def dequantLinear (x : (⟨2, ![8192, 4096]⟩ : Shape).Idx → EReal) (w : (⟨2, ![11008, 4096]⟩ : Shape).Idx → EReal)
    (sc : (⟨2, ![11008, 32]⟩ : Shape).Idx → EReal) (b : (⟨1, ![11008]⟩ : Shape).Idx → EReal) :
    (⟨2, ![8192, 11008]⟩ : Shape).Idx → EReal :=
  fun i => (∑ k : Fin 4096, x (ix2 (i 0) k) * (w (ix2 (i 1) k) * sc (ix2 (i 1) (grp k)))) + b (ix1 (i 1))

end Cert.Spec

end
-- ==== Proof.RefValue.lean ====
/-
  The reference computes the dequantised linear layer of Spec.lean.

  The reference reshapes the weights [11008, 4096] to [11008, 32, 128], multiplies by the scales broadcast along
  the last axis, reshapes back, contracts with `x` over the 4096 columns and adds the bias broadcast over the
  rows. Read at an output index `(t, o)` and a contraction index `k`, the two reshapes cancel: the flat position
  `o * 4096 + k` splits as `(o, k / 128, k % 128)`, so the weight read is `w[o, k]` and the scale read is
  `sc[o, k / 128]`. That is all there is to prove; it is arithmetic on indices.
-/
import proofs.«160714_j68178310856945_1_alg».proof.Proof.Gen.ReferenceIdeal.Read
import proofs.«160714_j68178310856945_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-- Through both reshapes, the weight the product at `(t, o)`, `k` reads is `w[o, k]`. -/
theorem weight_idx (i : S8192x11008.Idx) (k : Fin 4096) :
    idx_main_v0 (idx_main_v4 (ridx_main_v5 i k)) = ix2 (i 1) k := by
  funext a; apply Fin.ext
  have hk : k.val < 4096 := k.isLt
  have ho : (i 1).val < 11008 := (i 1).isLt
  match a with
  | ⟨0, _⟩ =>
    show (((((i 1).val * 4096 + k.val) / 4096) * 32 + ((i 1).val * 4096 + k.val) / 128 % 32) * 128
        + ((i 1).val * 4096 + k.val) % 128) / 4096 = (i 1).val
    omega
  | ⟨1, _⟩ =>
    show (((((i 1).val * 4096 + k.val) / 4096) * 32 + ((i 1).val * 4096 + k.val) / 128 % 32) * 128
        + ((i 1).val * 4096 + k.val) % 128) % 4096 = k.val
    omega

/-- Through the reshape and the two broadcasts, the scale it reads is `sc[o, k / 128]`. -/
theorem scale_idx (i : S8192x11008.Idx) (k : Fin 4096) :
    idx_main_v1 (idx_main_v2 (idx_main_v4 (ridx_main_v5 i k))) = ix2 (i 1) (grp k) := by
  funext a; apply Fin.ext
  have hk : k.val < 4096 := k.isLt
  have ho : (i 1).val < 11008 := (i 1).isLt
  match a with
  | ⟨0, _⟩ =>
    show ((i 1).val * 4096 + k.val) / 4096 = (i 1).val
    omega
  | ⟨1, _⟩ =>
    show ((i 1).val * 4096 + k.val) / 128 % 32 = k.val / 128
    omega

/-- The row of `x` the product reads is row `t`, at column `k`. -/
theorem input_idx (i : S8192x11008.Idx) (k : Fin 4096) : lidx_main_v5 i k = ix2 (i 0) k := by
  funext a; match a with | ⟨0, _⟩ => rfl | ⟨1, _⟩ => rfl

/-- The bias read at `(t, o)` through its two broadcasts is `b[o]`. -/
theorem bias_idx (i : S8192x11008.Idx) : idx_main_v6 (idx_main_v7 i) = ix1 (i 1) := by
  funext a; match a with | ⟨0, _⟩ => rfl

/-- The reference's result, as a function of its four arguments, is the dequantised linear layer. -/
theorem result_eq (x0 : (⟨S8192x4096, .f32⟩ : BufTy).Contents (Elt Ideal)) (x1 : (⟨S11008x4096, .f32⟩ : BufTy).Contents (Elt Ideal))
    (x2 : (⟨S11008x32, .f32⟩ : BufTy).Contents (Elt Ideal)) (x3 : (⟨S11008, .f32⟩ : BufTy).Contents (Elt Ideal)) :
    val_main_v8 (F := Ideal) x0 x1 x2 x3 = dequantLinear x0 x1 x2 x3 := by
  funext i
  rw [val_main_v8_apply, val_main_v5_apply, val_main_v7_apply, val_main_v6_apply, bias_idx]
  show _ + _ = _ + _
  refine congrArg₂ (· + ·) (Finset.sum_congr rfl fun k _ => ?_) rfl
  rw [val_main_v4_apply, val_main_v3_apply, val_main_v0_apply, val_main_v2_apply, val_main_v1_apply,
    weight_idx, scale_idx, input_idx]
  rfl

end Cert.ReferenceIdeal.RefValue

end
-- ==== Proof.Payload.lean ====
/-
  What the kernel body stores, read at one element of its [512, 256] output block.

  The body loads a [512, 4096] block of `x`, a [256, 4096] block of the ternary weights, the matching
  [256, 32] block of scales and a [1, 256] piece of the bias. It repeats every scale over its group's 128
  columns ([256, 32] -> [256, 32, 1] -> [256, 32, 128] -> [256, 4096]), multiplies the weights by that, narrows
  both operands to bf16 (the identity on the extended reals), contracts the two over their 4096 columns into a
  zero accumulator and adds the bias row to every row of the product. At block element `(p, q)` this is
      (∑ k < 4096, xblk[p, k] * (wblk[q, k] * scblk[q, k / 128])) + bblk[0, q].
  The only arithmetic on indices is that flat position `q * 4096 + k` of the repeated scales is
  `((q * 32 + k / 128) * 128 + k % 128)`.
-/
import proofs.«160714_j68178310856945_1_alg».proof.Proof.Gen.KernelIdeal.Skeleton
import proofs.«160714_j68178310856945_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Spec

/-! ## The scales repeated over their groups -/

/-- The [256, 32] scales, given a unit axis, broadcast along it to 128 and flattened to [256, 4096], hold at
    `(q, k)` the scale of row `q` and group `k / 128`. -/
theorem scales_repeated_apply (sc : FVec Ideal S256x32 .f32) (h1 : S256x32.ShapeCasts S256x32x1)
    (h2 : S256x32x1.ShapeCasts S256x32x1) (h3 : S256x32x1.Broadcasts S256x32x128) (h4 : S256x32x128.ShapeCasts S256x4096)
    (q : Fin 256) (k : Fin 4096) :
    shapeCast S256x4096 (broadcastTo S256x32x128 (shapeCast S256x32x1 (shapeCast S256x32x1 sc h1) h2) h3) h4 (ix2 q k)
      = sc (ix2 q (grp k)) := by
  have hk : k.val < 4096 := k.isLt
  have hq : q.val < 256 := q.isLt
  refine (shapeCast_apply _ h4 (ix2 q k) (ix3 q (grp k) (⟨k.val % 128, by omega⟩ : Fin 128)) ?_).trans ?_
  · rewrite [Shape.rowMajor_val_three, Shape.rowMajor_val_two]
    show (q.val * 32 + k.val / 128) * 128 + k.val % 128 = q.val * 4096 + k.val
    omega
  refine (broadcastTo_apply _ h3 _ (ix3 q (grp k) (0 : Fin 1)) fun a => ?_).trans ?_
  · match a with
    | ⟨0, _⟩ => show q.val = if (256 : Nat) = 1 then 0 else q.val; rw [if_neg (by decide)]
    | ⟨1, _⟩ => show k.val / 128 = if (32 : Nat) = 1 then 0 else k.val / 128; rw [if_neg (by decide)]
    | ⟨2, _⟩ => show 0 = if (1 : Nat) = 1 then 0 else k.val % 128; rw [if_pos rfl]
  rw [shapeCast_self]
  refine shapeCast_apply sc h1 _ (ix2 q (grp k)) ?_
  rewrite [Shape.rowMajor_val_two, Shape.rowMajor_val_three]
  show q.val * 32 + k.val / 128 = (q.val * 32 + k.val / 128) * 1 + 0
  omega

/-! ## The bias row under every row of the block -/

/-- The [1, 256] bias piece broadcast to [512, 256] holds at `(p, q)` the piece's entry `q`. -/
theorem bias_rows_apply (b : FVec Ideal S1x256 .f32) (h : S1x256.ShapeCasts S1x256) (h' : S1x256.Broadcasts S512x256)
    (p : Fin 512) (q : Fin 256) :
    broadcastTo S512x256 (shapeCast S1x256 b h) h' (ix2 p q) = b (ix2 (0 : Fin 1) q) := by
  rw [shapeCast_self]
  exact broadcastTo_1b_ab_apply b h' p q

/-! ## The contraction -/

theorem lhs_axis0 (i : S512x256.Idx) (r : dot_S512x4096_S256x4096_S512x256_1_1_0_0_n_n.contr.Idx) :
    (dot_S512x4096_S256x4096_S512x256_1_1_0_0_n_n.lhsIdx i r 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_axis1 (i : S512x256.Idx) (r : dot_S512x4096_S256x4096_S512x256_1_1_0_0_n_n.contr.Idx) :
    (dot_S512x4096_S256x4096_S512x256_1_1_0_0_n_n.lhsIdx i r 1).val = (r ⟨0, by decide⟩).val :=
  dot_S512x4096_S256x4096_S512x256_1_1_0_0_n_n.lhsIdx_val_of_single rfl i r
theorem rhs_axis0 (i : S512x256.Idx) (r : dot_S512x4096_S256x4096_S512x256_1_1_0_0_n_n.contr.Idx) :
    (dot_S512x4096_S256x4096_S512x256_1_1_0_0_n_n.rhsIdx i r 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_axis1 (i : S512x256.Idx) (r : dot_S512x4096_S256x4096_S512x256_1_1_0_0_n_n.contr.Idx) :
    (dot_S512x4096_S256x4096_S512x256_1_1_0_0_n_n.rhsIdx i r 1).val = (r ⟨0, by decide⟩).val :=
  dot_S512x4096_S256x4096_S512x256_1_1_0_0_n_n.rhsIdx_val_of_single rfl i r

/-- The product of a [512, 4096] and a [256, 4096] operand over their second axes into a zero accumulator
    holds at `(p, q)` the dot product of row `p` of the first with row `q` of the second. -/
theorem rows_dot_apply (a : FVec Ideal S512x4096 .bf16) (b : FVec Ideal S256x4096 .bf16) (p : Fin 512) (q : Fin 256) :
    matmul dot_S512x4096_S256x4096_S512x256_1_1_0_0_n_n none a b (constant S512x256 .f32 0x00000000#32) (ix2 p q)
      = ∑ k : Fin 4096, a (ix2 p k) * b (ix2 q k) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun ax => Fin.ext (by
    match ax with
    | ⟨0, _⟩ => exact rhs_axis0 _ _
    | ⟨1, _⟩ => exact (rhs_axis1 _ _).trans hk)
  rw [el, er]

/-! ## The stored value -/

/-- The body's one stored value at block element `(p, q)`. -/
theorem stored_apply (x : Vec Ideal S512x4096 .f32) (w : Vec Ideal S256x4096 .f32) (sc : Vec Ideal S256x32 .f32)
    (b : Vec Ideal S1x256 .f32) (p : Fin 512) (q : Fin 256) :
    k0_pay1 (F := Ideal) x w sc b (ix2 p q)
      = (∑ k : Fin 4096, x (ix2 p k) * (w (ix2 q k) * sc (ix2 q (grp k)))) + b (ix2 (0 : Fin 1) q) := by
  unfold k0_pay1
  refine (addf_apply _ _ _).trans (congrArg₂ (· + ·) ?_ (bias_rows_apply b _ _ p q))
  refine (rows_dot_apply _ _ p q).trans (Finset.sum_congr rfl fun k _ => ?_)
  exact congrArg (fun z => x (ix2 p k) * (w (ix2 q k) * z)) (scales_repeated_apply sc _ _ _ _ q k)

end Cert.KernelIdeal.Payload

end
-- ==== Proof.KernelValue.lean ====
/-
  From what one grid point writes back to the whole result array.

  The grid is 16 x 43: point `t` is block row `t / 43` of the 8192 tokens (512 at a time) and block column
  `t % 43` of the 11008 outputs (256 at a time). At that point the body reads rows `512 * (t / 43) ..` of `x`,
  rows `256 * (t % 43) ..` of the weights and of the scales, entries `256 * (t % 43) ..` of the bias (staged as
  a [1, 11008] row), and writes block `(t / 43, t % 43)` of the result. So what it writes is that block of the
  dequantised linear layer of the four argument arrays (Spec.lean); the 688 blocks tile the [8192, 11008]
  result, hence after the run the result array IS that layer.
-/
import proofs.«160714_j68178310856945_1_alg».proof.Proof.Gen.KernelIdeal.Value
import proofs.«160714_j68178310856945_1_alg».proof.Proof.Payload
import Idealize.ShloMosaic.Lib.StableHlo.Run

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Spec Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window holds at a point -/

/-- Point `t` of the 16 x 43 grid sits at block row `t / 43` and block column `t % 43`: `x` follows the row, the
    weights, scales and bias follow the column, the result follows both. Decided over the 688 points. -/
theorem block_indices : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = t.val % 43 :=
  (by decide +kernel : ∀ t : Fin grid0.N, _)

/-! ## The input blocks as pieces of the argument arrays -/

/-- Element `(p, k)` of the `x` block at point `t` is `x[512 * (t / 43) + p, k]`. -/
theorem xblk_apply (c : Dev nD) (t : Fin cfg0.N) (p : Fin 512) (k : Fin 4096) (i : S8192x4096.Idx)
    (h0 : (i 0).val = t.val / 43 * 512 + p.val) (h1 : (i 1).val = k.val) :
    (iblk m c 0 t : Vec Ideal S512x4096 .f32) (ix2 p k) = (m ((c : Thread nD τ).loc main_arg0) : S8192x4096.Idx → EReal) i := by
  obtain ⟨e0, e1, -⟩ := block_indices t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 512 + 1 * p.val = (i 0).val; rw [e0, h0]; omega
  | ⟨1, _⟩ => show win0_0.index t (1 : Fin 2) * 4096 + 1 * k.val = (i 1).val; rw [e1, h1]; omega

/-- Element `(q, k)` of the weight block at point `t` is `w[256 * (t % 43) + q, k]`. -/
theorem wblk_apply (c : Dev nD) (t : Fin cfg0.N) (q : Fin 256) (k : Fin 4096) (i : S11008x4096.Idx)
    (h0 : (i 0).val = t.val % 43 * 256 + q.val) (h1 : (i 1).val = k.val) :
    (iblk m c 1 t : Vec Ideal S256x4096 .f32) (ix2 q k) = (m ((c : Thread nD τ).loc main_arg1) : S11008x4096.Idx → EReal) i := by
  obtain ⟨-, -, e0, e1, -⟩ := block_indices t
  unfold iblk
  rw [View.read_apply]
  show V m c main_arg1 _ = _
  refine (congrFun (V_main_arg1 m c) _).trans (congrArg _ (funext fun a => Fin.ext ?_))
  match a with
  | ⟨0, _⟩ => show win0_1.index t (0 : Fin 2) * 256 + 1 * q.val = (i 0).val; rw [e0, h0]; omega
  | ⟨1, _⟩ => show win0_1.index t (1 : Fin 2) * 4096 + 1 * k.val = (i 1).val; rw [e1, h1]; omega

/-- Element `(q, g)` of the scale block at point `t` is `sc[256 * (t % 43) + q, g]`. -/
theorem sblk_apply (c : Dev nD) (t : Fin cfg0.N) (q : Fin 256) (g : Fin 32) (i : S11008x32.Idx)
    (h0 : (i 0).val = t.val % 43 * 256 + q.val) (h1 : (i 1).val = g.val) :
    (iblk m c 2 t : Vec Ideal S256x32 .f32) (ix2 q g) = (m ((c : Thread nD τ).loc main_arg2) : S11008x32.Idx → EReal) i := by
  obtain ⟨-, -, -, -, e0, e1, -⟩ := block_indices t
  unfold iblk
  rw [View.read_apply]
  show V m c main_arg2 _ = _
  refine (congrFun (V_main_arg2 m c) _).trans (congrArg _ (funext fun a => Fin.ext ?_))
  match a with
  | ⟨0, _⟩ => show win0_2.index t (0 : Fin 2) * 256 + 1 * q.val = (i 0).val; rw [e0, h0]; omega
  | ⟨1, _⟩ => show win0_2.index t (1 : Fin 2) * 32 + 1 * g.val = (i 1).val; rw [e1, h1]; omega

/-- The bias is staged from a [1, 11008] row that the host made of it before the region: the same 11008 entries. -/
theorem bias_row (c : Dev nD) :
    (V m c main_v0 : S1x11008.Idx → EReal) = shapeCast S1x11008 (m ((c : Thread nD τ).loc main_arg3)) shapeCasts_S11008_S1x11008 := by
  dsimp only [Gen.V, Gen.hostOps0]; after_results; rfl

/-- Element `(0, q)` of the bias piece at point `t` is `b[256 * (t % 43) + q]`. -/
theorem bblk_apply (c : Dev nD) (t : Fin cfg0.N) (q : Fin 256) (o : Fin 11008) (ho : o.val = t.val % 43 * 256 + q.val) :
    (iblk m c 3 t : Vec Ideal S1x256 .f32) (ix2 (0 : Fin 1) q) = (m ((c : Thread nD τ).loc main_arg3) : S11008.Idx → EReal) (ix1 o) := by
  obtain ⟨-, -, -, -, -, -, e0, e1, -⟩ := block_indices t
  unfold iblk
  rw [View.read_apply]
  show V m c main_v0 _ = _
  refine (congrFun (bias_row m c) _).trans ?_
  refine shapeCast_apply _ _ _ (ix1 o) ?_
  rewrite [Shape.rowMajor_val_one, Shape.rowMajor_val_two]
  show o.val = (win0_3.index t (0 : Fin 2) * 1 + 1 * 0) * 11008 + (win0_3.index t (1 : Fin 2) * 256 + 1 * q.val)
  rw [e0, e1, ho]; omega

/-! ## What a point writes back -/

/-- The result array the kernel ends with: the dequantised linear layer of its four argument arrays. -/
abbrev result (c : Dev nD) : Buf (Elt Ideal) ((c : Thread nD τ).loc main_v1) :=
  dequantLinear (m ((c : Thread nD τ).loc main_arg0)) (m ((c : Thread nD τ).loc main_arg1))
    (m ((c : Thread nD τ).loc main_arg2)) (m ((c : Thread nD τ).loc main_arg3))

/-- The stored value at block element `j` of point `t` is the layer at the array index `i` that element lands on. -/
theorem stored_at (c : Dev nD) (t : Fin cfg0.N) (j : S512x256.Idx) (i : S8192x11008.Idx)
    (h0 : (i 0).val = t.val / 43 * 512 + (j 0).val) (h1 : (i 1).val = t.val % 43 * 256 + (j 1).val) :
    k0_pay1 (F := Ideal) (iblk m c 0 t) (iblk m c 1 t) (iblk m c 2 t) (iblk m c 3 t) j = result m c i := by
  obtain ⟨p, q, rfl⟩ : ∃ (p : Fin 512) (q : Fin 256), j = ix2 p q := ⟨j 0, j 1, eq_ix2 j⟩
  refine (Payload.stored_apply (iblk m c 0 t) (iblk m c 1 t) (iblk m c 2 t) (iblk m c 3 t) p q).trans ?_
  unfold result dequantLinear
  refine congrArg₂ (· + ·) (Finset.sum_congr rfl fun k _ => ?_) (bblk_apply m c t q (i 1) h1)
  exact congrArg₂ (· * ·) (xblk_apply m c t p k _ h0 rfl)
    (congrArg₂ (· * ·) (wblk_apply m c t q k _ h1 rfl) (sblk_apply m c t q (grp k) _ h1 rfl))

/-- WHAT POINT `t` WRITES BACK is its block of the layer. -/
theorem flushed_eq (c : Dev nD) (t : Fin cfg0.N) :
    (dats m 0 c).flushed 4 t = ((cfg0.win 4).blk t).view.read (Elt Ideal) (result m c) := by
  obtain ⟨-, -, -, -, -, -, -, -, e0, e1⟩ := block_indices t
  rw [flushed4]
  unfold out0_4
  rw [View.canon_unit_zero hz]
  simp only [View.ld_unit_zero (S := S512x4096) hz, View.ld_unit_zero (S := S256x4096) hz,
    View.ld_unit_zero (S := S256x32) hz, View.ld_unit_zero (S := S1x256) hz]
  funext j
  show k0_pay1 (F := Ideal) (iblk m c 0 t) (iblk m c 1 t) (iblk m c 2 t) (iblk m c 3 t) ((cfg0.win 4).xinj (grid0.coords t) j)
    = result m c (((cfg0.win 4).blk t).view.emb j)
  refine stored_at m c t _ _ ?_ ?_
  · show win0_4.index t (0 : Fin 2) * 512 + 1 * (j 0).val = t.val / 43 * 512 + (j 0).val; rw [e0]; omega
  · show win0_4.index t (1 : Fin 2) * 256 + 1 * (j 1).val = t.val % 43 * 256 + (j 1).val; rw [e1]; omega

/-! ## The blocks tile the result -/

/-- An index of the result is in point `t`'s block iff each coordinate is in the block's range on its axis. -/
theorem mem_blk (t : Fin cfg0.N) (i : S8192x11008.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v1).slice (win0_4.rect t)).set ↔ _
  rw [View.set_slice_whole, Rect.mem_set_unit]
  exact Iff.rfl

/-- Every index `(r, o)` of the result lies in the block of point `(r / 512) * 43 + o / 256`. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  obtain ⟨t, ht⟩ : ∃ t : Fin cfg0.N, t.val = (i 0).val / 512 * 43 + (i 1).val / 256 :=
    ⟨⟨(i 0).val / 512 * 43 + (i 1).val / 256, lt_of_lt_of_eq (by omega) N_0.symm⟩, rfl⟩
  obtain ⟨-, -, -, -, -, -, -, -, e0, e1⟩ := block_indices t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 256 ≤ (i 1).val ∧ (i 1).val < win0_4.index t (1 : Fin 2) * 256 + 256
    rw [e1, ht]; omega

/-- THE RESULT ARRAY after the run is the dequantised linear layer of the argument arrays. -/
theorem final (c : Dev nD) : (dats m 0 c).arrAt 4 cfg0.N = result m c :=
  (dats m 0 c).arrAt_eq_of_cover 4 (result m c) (fun t _ => flushed_eq m c t) (covered)

/-! ## The run, read -/

/-- Every weakly fair execution of the kernel program ends with the result array at the layer of the arguments and
    the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.lean ====
/-
  A linear layer with group-wise ternary weights, as a tiled kernel, against its one-line jnp reference.

  Both programs compute, over the extended reals,
      out[t, o] = (∑ k < 4096, x[t, k] * (w[o, k] * sc[o, k / 128])) + b[o]
  (Proof/Spec.lean). The reference does it with whole arrays: it views the weights as [11008, 32, 128], multiplies by
  the scales broadcast over the last axis, flattens, contracts with `x` and adds the bias (Proof/RefValue.lean reads
  its result at an index: the two reshapes cancel). The kernel does it block by block on a 16 x 43 grid: at each point
  it repeats the scales over their groups inside a [256, 4096] weight block, narrows both operands to bf16 (which
  changes nothing on the extended reals), multiplies a [512, 4096] block of `x` with it into a zero accumulator and
  adds the bias piece (Proof/Payload.lean reads the stored block at an element; Proof/KernelValue.lean places the
  block in the array and shows the 688 blocks tile it). The two sides are the SAME sum of the SAME products, so no law
  of arithmetic and no finiteness of the inputs is needed: the precondition is never opened.

  The three frames are the generated ones (the reference's is its generated run with the result dropped); reading the
  kernel on the extended reals instead of on machine words rewrote none of its operations, so `preserves` is `True`.
-/
import proofs.«160714_j68178310856945_1_alg».proof.Defs
import proofs.«160714_j68178310856945_1_alg».proof.Proof.Gen.Kernel
import proofs.«160714_j68178310856945_1_alg».proof.Proof.Gen.Kernel.Skeleton
import proofs.«160714_j68178310856945_1_alg».proof.Proof.Gen.Kernel.Launch
import proofs.«160714_j68178310856945_1_alg».proof.Proof.Gen.Kernel.Points
import proofs.«160714_j68178310856945_1_alg».proof.Proof.Gen.Kernel.Frame
import proofs.«160714_j68178310856945_1_alg».proof.Proof.Gen.KernelIdeal
import proofs.«160714_j68178310856945_1_alg».proof.Proof.Gen.KernelIdeal.Skeleton
import proofs.«160714_j68178310856945_1_alg».proof.Proof.Gen.KernelIdeal.Launch
import proofs.«160714_j68178310856945_1_alg».proof.Proof.Gen.KernelIdeal.Points
import proofs.«160714_j68178310856945_1_alg».proof.Proof.Gen.KernelIdeal.Frame
import proofs.«160714_j68178310856945_1_alg».proof.Proof.Gen.ReferenceIdeal
import proofs.«160714_j68178310856945_1_alg».proof.Proof.Gen.Pre_finite_inputs
import proofs.«160714_j68178310856945_1_alg».proof.Proof.Gen.KernelIdeal.Value
import proofs.«160714_j68178310856945_1_alg».proof.Proof.Gen.ReferenceIdeal.Run
import proofs.«160714_j68178310856945_1_alg».proof.Proof.Gen.ReferenceIdeal.Read
import Idealize.ShloMosaic.Adequacy
import Idealize.ShloMosaic.Init
import proofs.«160714_j68178310856945_1_alg».proof.Proof.RefValue
import proofs.«160714_j68178310856945_1_alg».proof.Proof.KernelValue

noncomputable section

namespace Cert.Proof

open Idealize.ShloMosaic Idealize.ShloMosaic.TcCoe Idealize.SL.Sem

/-- The word-level kernel terminates, faults nowhere and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array ends at the dequantised linear layer of
    its arguments (block by block) and the reference's at the same layer of its own (array by array). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
